-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x768 : Shape := ⟨3, ![32, 128, 768]⟩
abbrev S32x128x128 : Shape := ⟨3, ![32, 128, 128]⟩
abbrev S128x768 : Shape := ⟨2, ![128, 768]⟩
abbrev S256x128 : Shape := ⟨2, ![256, 128]⟩
abbrev S256 : Shape := ⟨1, ![256]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S32x128x768 : S_.BroadcastsInDim S32x128x768 (![] : Fin 0 → Fin S32x128x768.rank)
  reducesTo_S32x128x768_S_d0_1_2 : S32x128x768.ReducesTo [0, 1, 2] S_
  h_S_ : 0 < S_.numel
  bcast_S_S32x128x128 : S_.BroadcastsInDim S32x128x128 (![] : Fin 0 → Fin S32x128x128.rank)
  reducesTo_S32x128x128_S_d0_1_2 : S32x128x128.ReducesTo [0, 1, 2] S_
  bcast_S_S128x768 : S_.BroadcastsInDim S128x768 (![] : Fin 0 → Fin S128x768.rank)
  reducesTo_S128x768_S_d0_1 : S128x768.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2x128 .f32) (main_arg12 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg7 : FVec F S128x128 .f32) (main_arg8 : FVec F S128 .f32) (main_arg9 : FVec F S128x128 .f32) (main_arg10 : FVec F S128 .f32) (main_arg11 : FVec F S2x128 .f32) (main_arg12 : FVec F S2 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S256 .f32) (main_arg5 : FVec F S256x128 .f32) (main_arg6 : FVec F S256 .f32) (main_arg7 : FVec F S128x128 .f32) (main_arg8 : FVec F S128 .f32) (main_arg9 : FVec F S128x128 .f32) (main_arg10 : FVec F S128 .f32) (main_arg11 : FVec F S2x128 .f32) (main_arg12 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x128x768 .f32) (main_arg1 : FVec F S32x128x128 .f32) (main_arg2 : FVec F S128x768 .f32) (main_arg3 : FVec F S256x128 .f32) (main_arg4 : FVec F S256 .f32) (main_arg5 : FVec F S256x128 .f32) (main_arg6 : FVec F S256 .f32) (main_arg7 : FVec F S128x128 .f32) (main_arg8 : FVec F S128 .f32) (main_arg9 : FVec F S128x128 .f32) (main_arg10 : FVec F S128 .f32) (main_arg11 : FVec F S2x128 .f32) (main_arg12 : FVec F S2 .f32) : IVec S_ 1 :=
  let main_v0 : FVec F S32x128x768 .f32 := Host.absf main_arg0
  let main_cst : FVec F S_ .f32 := constant S_ .f32 0x7F800000#32
  let main_v1 : FVec F S32x128x768 .f32 := broadcastInDim S32x128x768 ![] bcast_S_S32x128x768 main_cst
  let main_v2 : IVec S32x128x768 1 := cmpf .olt main_v0 main_v1
  let main_c : IVec S_ 1 := constantI S_ 1 1#1
  let main_v3 : IVec S_ 1 := (fun x v => Host.reduce IntOp.andi x v reducesTo_S32x128x768_S_d0_1_2 h_S_) main_v2 main_c
  let main_v4 : FVec F S32x128x128 .f32 := Host.absf main_arg1
  let main_cst_0 : FVec F S_ .f32 := constant S_ .f32 0x7F800000#32
  let main_v5 : FVec F S32x128x128 .f32 := broadcastInDim S32x128x128 ![] bcast_S_S32x128x128 main_cst_0
  let main_v6 : IVec S32x128x128 1 := cmpf .olt main_v4 main_v5
  let main_c_1 : IVec S_ 1 := constantI S_ 1 1#1
  let main_v7 : IVec S_ 1 := (fun x v => Host.reduce IntOp.andi x v reducesTo_S32x128x128_S_d0_1_2 h_S_) main_v6 main_c_1
  let main_v8 : IVec S_ 1 := andi main_v3 main_v7
  let main_v9 : FVec F S128x768 .f32 := Host.absf main_arg2
  let main_cst_2 : FVec F S_ .f32 := constant S_ .f32 0x7F800000#32
  let main_v10 : FVec F S128x768 .f32 := broadcastInDim S128x768 ![] bcast_S_S128x768 main_cst_2
  let main_v11 : IVec S128x768 1 := cmpf .olt main_v9 main_v10
  let main_c_3 : IVec S_ 1 := constantI S_ 1 1#1
  let main_v12 : IVec S_ 1 := (fun x v => Host.reduce IntOp.andi x v reducesTo_S128x768_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_v13 main_v16
-- ==== Kernel.lean ====
abbrev S32x128x768 : Shape := ⟨3, ![32, 128, 768]⟩
abbrev S32x128x128 : Shape := ⟨3, ![32, 128, 128]⟩
abbrev S128x768 : Shape := ⟨2, ![128, 768]⟩
abbrev S256x128 : Shape := ⟨2, ![256, 128]⟩
abbrev S256 : Shape := ⟨1, ![256]⟩
abbrev S128x128 : Shape := ⟨2, ![128, 128]⟩
abbrev S128 : Shape := ⟨1, ![128]⟩
abbrev S2x128 : Shape := ⟨2, ![2, 128]⟩
abbrev S2 : Shape := ⟨1, ![2]⟩
abbrev S32x1x768 : Shape := ⟨3, ![32, 1, 768]⟩
abbrev S32x768 : Shape := ⟨2, ![32, 768]⟩
abbrev S1x2 : Shape := ⟨2, ![1, 2]⟩
abbrev S32x2 : Shape := ⟨2, ![32, 2]⟩
abbrev S768x128 : Shape := ⟨2, ![768, 128]⟩
abbrev S32x128 : Shape := ⟨2, ![32, 128]⟩
abbrev S128x2 : Shape := ⟨2, ![128, 2]⟩

abbrev nBuf : Space → Nat
  | .hbm => 17
  | .vmem => 5
  | .smem => 0
  | _ => 0

abbrev bufTy : (tb : Table) → Fin (tcTables nBuf tb) → BufTy
  | .hbm, ⟨0, _⟩ => ⟨S32x128x768, .f32⟩
  | .hbm, ⟨1, _⟩ => ⟨S32x128x128, .f32⟩
  | .hbm, ⟨2, _⟩ => ⟨S128x768, .f32⟩
  | .hbm, ⟨3, _⟩ => ⟨S256x128, .f32⟩
  | .hbm, ⟨4, _⟩ => ⟨S256, .f32⟩
  | .hbm, ⟨5, _⟩ => ⟨S256x128, .f32⟩
  | .hbm, ⟨6, _⟩ => ⟨S256, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S2x128, .f32⟩
  | .hbm, ⟨12, _⟩ => ⟨S2, .f32⟩
  | .hbm, ⟨13, _⟩ => ⟨S32x1x768, .f32⟩
  | .hbm, ⟨14, _⟩ => ⟨S32x768, .f32⟩
  | .hbm, ⟨15, _⟩ => ⟨S1x2, .f32⟩
  | .hbm, ⟨16, _⟩ => ⟨S32x2, .f32⟩
  | .local _ .vmem, ⟨0, _⟩ => ⟨S32x768, .f32⟩
  | .local _ .vmem, ⟨1, _⟩ => ⟨S128x768, .f32⟩
  | .local _ .vmem, ⟨2, _⟩ => ⟨S2x128, .f32⟩
  | .local _ .vmem, ⟨3, _⟩ => ⟨S1x2, .f32⟩
  | .local _ .vmem, ⟨4, _⟩ => ⟨S32x2, .f32⟩
  | _, _ => ⟨S32x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S32x128x768_S32x1x768_0_0_0 : S32x128x768.Slices ![0, 0, 0] S32x1x768
  shapeCasts_S32x1x768_S32x768 : S32x1x768.ShapeCasts S32x768
  shapeCasts_S2_S1x2 : S2.ShapeCasts S1x2
  inb_S32x768_S32x768_0_0 : ∀ a, (![0, 0] : Fin 2 → Nat) a + S32x768.size a ≤ S32x768.size a
  h_S32x768 : 0 < S32x768.numel
  shapeCasts_S32x768_S32x768 : S32x768.ShapeCasts S32x768
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  transposes_S128x768_p1_0_S768x128 : S128x768.Transposes [1, 0] S768x128
  inb_S2x128_S2x128_0_0 : ∀ a, (![0, 0] : Fin 2 → Nat) a + S2x128.size a ≤ S2x128.size a
  h_S2x128 : 0 < S2x128.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S2x128_p1_0_S128x2 : S2x128.Transposes [1, 0] S128x2
  broadcasts_S1x2_S32x2 : S1x2.Broadcasts S32x2
  inb_S32x2_S32x2_0_0 : ∀ a, (![0, 0] : Fin 2 → Nat) a + S32x2.size a ≤ S32x2.size a
  h_S32x2 : 0 < S32x2.numel
  dot_S32x768_S768x128_S32x128_1_0_0_1_n_n_wf : DotDims.WF S32x768 S768x128 S32x128 [1] [0] [0] [1] [] []
  dot_S32x128_S128x2_S32x2_1_0_0_1_n_n_wf : DotDims.WF S32x128 S128x2 S32x2 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x768.size a ≤ S32x768.size a
  hwx0_0 : ∀ i : grid0.Coords, EltTy.bits .f32 = 32 ∨ (Rect.block (s := S32x768) S32x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x768.size a ≤ S128x768.size a
  hwx0_1 : ∀ i : grid0.Coords, EltTy.bits .f32 = 32 ∨ (Rect.block (s := S128x768) S128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x2.size a ≤ S32x2.size a
  hwx0_4 : ∀ i : grid0.Coords, EltTy.bits .f32 = 32 ∨ (Rect.block (s := S32x2) S32x2.size (cc0_transform_4 i) (hinb0_4 i)).WholeWords (EltTy.packing .f32)

variable [Facts₀]

def dot_S32x768_S768x128_S32x128_1_0_0_1_n_n : DotDims S32x768 S768x128 S32x128 where
  lhsContracting := [1]
  rhsContracting := [0]
  lhsNonContracting := [0]
  rhsNonContracting := [1]
  lhsBatch := []
  rhsBatch := []
  wf := dot_S32x768_S768x128_S32x128_1_0_0_1_n_n_wf
def dot_S32x128_S128x2_S32x2_1_0_0_1_n_n : DotDims S32x128 S128x2 S32x2 where
  lhsContracting := [1]
  rhsContracting := [0]
  lhsNonContracting := [0]
  rhsNonContracting := [1]
  lhsBatch := []
  rhsBatch := []
  wf := dot_S32x128_S128x2_S32x2_1_0_0_1_n_n_wf

abbrev win0_0 : Pipeline.Window sig grid0 :=
  Pipeline.Window.ofSpec (Memref.whole main_v1) S32x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x128x768 : Shape := ⟨3, ![32, 128, 768]⟩
abbrev S32x128x128 : Shape := ⟨3, ![32, 128, 128]⟩
abbrev S128x768 : Shape := ⟨2, ![128, 768]⟩
abbrev S256x128 : Shape := ⟨2, ![256, 128]⟩
abbrev S256 : Shape := ⟨1, ![256]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩
abbrev S32x128 : Shape := ⟨2, ![32, 128]⟩
abbrev S32x128x1 : Shape := ⟨3, ![32, 128, 1]⟩
abbrev S1 : Shape := ⟨1, ![1]⟩
abbrev S128x256 : Shape := ⟨2, ![128, 256]⟩
abbrev S32x256 : Shape := ⟨2, ![32, 256]⟩
abbrev S1x256 : Shape := ⟨2, ![1, 256]⟩
abbrev S1x128 : Shape := ⟨2, ![1, 128]⟩
abbrev S32x1x128 : Shape := ⟨3, ![32, 1, 128]⟩
abbrev S128x2 : Shape := ⟨2, ![128, 2]⟩
abbrev S32x2 : Shape := ⟨2, ![32, 2]⟩
abbrev S1x2 : Shape := ⟨2, ![1, 2]⟩

abbrev nBuf : Space → Nat
  | .hbm => 150
  | .vmem => 0
  | .smem => 0
  | _ => 0

abbrev hbmTy0_0 (i : Nat) : BufTy := match i % 128 with
  | 0 => ⟨S32x128x768, .f32⟩
  | 1 => ⟨S32x128x128, .f32⟩
  | 2 => ⟨S128x768, .f32⟩
  | 3 => ⟨S256x128, .f32⟩
  | 4 => ⟨S256, .f32⟩
  | 5 => ⟨S256x128, .f32⟩
  | 6 => ⟨S256, .f32⟩
  | 7 => ⟨S128x128, .f32⟩
  | 8 => ⟨S128, .f32⟩
  | 9 => ⟨S128x128, .f32⟩
  | 10 => ⟨S128, .f32⟩
  | 11 => ⟨S2x128, .f32⟩
  | 12 => ⟨S2, .f32⟩
  | 13 => ⟨S32x128x128, .f32⟩
  | 14 => ⟨S_, .f32⟩
  | 15 => ⟨S32x128, .f32⟩
  | 16 => ⟨S_, .f32⟩
  | 17 => ⟨S32x128, .f32⟩
  | 18 => ⟨S32x128, .i1⟩
  | 19 => ⟨S_, .f32⟩
  | 20 => ⟨S32x128, .f32⟩
  | 21 => ⟨S32x128, .f32⟩
  | 22 => ⟨S_, .f32⟩
  | 23 => ⟨S32x128, .f32⟩
  | 24 => ⟨S32x128, .f32⟩
  | 25 => ⟨S32x128x1, .f32⟩
  | 26 => ⟨S32x128x128, .f32⟩
  | 27 => ⟨S32x128x128, .f32⟩
  | 28 => ⟨S128, .i32⟩
  | 29 => ⟨S_, .i32⟩
  | 30 => ⟨S128, .i32⟩
  | 31 => ⟨S128, .i32⟩
  | 32 => ⟨S_, .i32⟩
  | 33 => ⟨S128, .i32⟩
  | 34 => ⟨S128, .i32⟩
  | 35 => ⟨S_, .i32⟩
  | 36 => ⟨S128, .i32⟩
  | 37 => ⟨S32x128x128, .f32⟩
  | 38 => ⟨S32x128x128, .f32⟩
  | 39 => ⟨S256x128, .f32⟩
  | 40 => ⟨S256, .f32⟩
  | 41 => ⟨S256x128, .f32⟩
  | 42 => ⟨S256, .f32⟩
  | 43 => ⟨S128x128, .f32⟩
  | 44 => ⟨S128, .f32⟩
  | 45 => ⟨S128x128, .f32⟩
  | 46 => ⟨S128, .f32⟩
  | 47 => ⟨S_, .i32⟩
  | 48 => ⟨S32x128x128, .f32⟩
  | 49 => ⟨S_, .i32⟩
  | 50 => ⟨S_, .i1⟩
  | 51 => ⟨S1, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S1, .i32⟩
  | 59 => ⟨S1, .i32⟩
  | 60 => ⟨S_, .i32⟩
  | 61 => ⟨S1, .i32⟩
  | 62 => ⟨S1, .i1⟩
  | 63 => ⟨S1, .i1⟩
  | 64 => ⟨S1, .i1⟩
  | 65 => ⟨S_, .i1⟩
  | 66 => ⟨S_, .i1⟩
  | 67 => ⟨S32x128, .f32⟩
  | 68 => ⟨S32x128, .i1⟩
  | 69 => ⟨S_, .f32⟩
  | 70 => ⟨S32x128, .f32⟩
  | 71 => ⟨S32x128, .f32⟩
  | 72 => ⟨S_, .i32⟩
  | 73 => ⟨S_, .i1⟩
  | 74 => ⟨S_, .i32⟩
  | 75 => ⟨S_, .i32⟩
  | 76 => ⟨S_, .i32⟩
  | 77 => ⟨S1, .i32⟩
  | 78 => ⟨S1, .i32⟩
  | 79 => ⟨S_, .i32⟩
  | 80 => ⟨S1, .i32⟩
  | 81 => ⟨S1, .i1⟩
  | 82 => ⟨S1, .i1⟩
  | 83 => ⟨S1, .i1⟩
  | 84 => ⟨S_, .i1⟩
  | 85 => ⟨S_, .i1⟩
  | 86 => ⟨S32x128, .f32⟩
  | 87 => ⟨S32x128, .i1⟩
  | 88 => ⟨S_, .f32⟩
  | 89 => ⟨S32x128, .f32⟩
  | 90 => ⟨S32x128, .f32⟩
  | 91 => ⟨S32x128, .f32⟩
  | 92 => ⟨S128x256, .f32⟩
  | 93 => ⟨S32x256, .f32⟩
  | 94 => ⟨S1x256, .f32⟩
  | 95 => ⟨S32x256, .f32⟩
  | 96 => ⟨S32x256, .f32⟩
  | 97 => ⟨S128x256, .f32⟩
  | 98 => ⟨S32x256, .f32⟩
  | 99 => ⟨S32x256, .f32⟩
  | 100 => ⟨S1x256, .f32⟩
  | 101 => ⟨S32x256, .f32⟩
  | 102 => ⟨S32x256, .f32⟩
  | 103 => ⟨S32x256, .f32⟩
  | 104 => ⟨S32x256, .f32⟩
  | 105 => ⟨S_, .f32⟩
  | 106 => ⟨S32x256, .f32⟩
  | 107 => ⟨S32x256, .f32⟩
  | 108 => ⟨S_, .f32⟩
  | 109 => ⟨S32x256, .f32⟩
  | 110 => ⟨S32x256, .f32⟩
  | 111 => ⟨S32x128, .f32⟩
  | 112 => ⟨S32x128, .f32⟩
  | 113 => ⟨S128x128, .f32⟩
  | 114 => ⟨S32x128, .f32⟩
  | 115 => ⟨S1x128, .f32⟩
  | 116 => ⟨S32x128, .f32⟩
  | 117 => ⟨S32x128, .f32⟩
  | 118 => ⟨S32x128, .f32⟩
  | 119 => ⟨S128x128, .f32⟩
  | 120 => ⟨S32x128, .f32⟩
  | 121 => ⟨S32x128, .f32⟩
  | 122 => ⟨S1x128, .f32⟩
  | 123 => ⟨S32x128, .f32⟩
  | 124 => ⟨S32x128, .f32⟩
  | 125 => ⟨S32x128, .f32⟩
  | 126 => ⟨S32x128, .f32⟩
  | 127 => ⟨S_, .f32⟩
  | _ => ⟨S32x128x768, .f32⟩

abbrev hbmTy0_1 (i : Nat) : BufTy := match i % 128 with
  | 0 => ⟨S32x128, .f32⟩
  | 1 => ⟨S32x128, .f32⟩
  | 2 => ⟨S32x128, .f32⟩
  | 3 => ⟨S32x128, .f32⟩
  | 4 => ⟨S32x1x128, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S32x128x128, .f32⟩
  | 13 => ⟨S_, .i32⟩
  | 14 => ⟨S_, .i32⟩
  | 15 => ⟨S32x1x128, .f32⟩
  | 16 => ⟨S32x128, .f32⟩
  | 17 => ⟨S128x2, .f32⟩
  | 18 => ⟨S32x2, .f32⟩
  | 19 => ⟨S1x2, .f32⟩
  | 20 => ⟨S32x2, .f32⟩
  | 21 => ⟨S32x2, .f32⟩
  | _ => ⟨S32x128x768, .f32⟩

abbrev hbmTy (i : Nat) : BufTy := match i / 128 with
  | 0 => hbmTy0_0 i
  | 1 => hbmTy0_1 i
  | _ => ⟨S32x128x768, .f32⟩

abbrev bufTy : (tb : Table) → Fin (tcTables nBuf tb) → BufTy
  | .hbm, ⟨i, _⟩ => hbmTy i
  | _, _ => ⟨S32x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev main_v16_4 : Ref sig .tc := ⟨.hbm, 40, rfl⟩
abbrev main_v16_5 : Ref sig .tc := ⟨.hbm, 41, rfl⟩
abbrev main_v16_6 : Ref sig .tc := ⟨.hbm, 42, rfl⟩
abbrev main_v16_7 : Ref sig .tc := ⟨.hbm, 43, rfl⟩
abbrev main_v16_8 : Ref sig .tc := ⟨.hbm, 44, rfl⟩
abbrev main_v16_9 : Ref sig .tc := ⟨.hbm, 45, rfl⟩
abbrev main_v16_10 : Ref sig .tc := ⟨.hbm, 46, rfl⟩
abbrev main_v16_11 : Ref sig .tc := ⟨.hbm, 47, rfl⟩
abbrev main_v16_12 : Ref sig .tc := ⟨.hbm, 48, rfl⟩
abbrev main_while0c_c_17 : Ref sig .tc := ⟨.hbm, 49, rfl⟩
abbrev main_while0c_v24 : Ref sig .tc := ⟨.hbm, 50, rfl⟩
abbrev main_while0b_call1_v0 : Ref sig .tc := ⟨.hbm, 51, rfl⟩
abbrev main_while0b_v24 : Ref sig .tc := ⟨.hbm, 52, rfl⟩
abbrev main_while0b_call2_call0_c : Ref sig .tc := ⟨.hbm, 53, rfl⟩
abbrev main_while0b_call2_call0_v0 : Ref sig .tc := ⟨.hbm, 54, rfl⟩
abbrev main_while0b_call2_call0_c_0 : Ref sig .tc := ⟨.hbm, 55, rfl⟩
abbrev main_while0b_call2_call0_v1 : Ref sig .tc := ⟨.hbm, 56, rfl⟩
abbrev main_while0b_call2_call0_v2 : Ref sig .tc := ⟨.hbm, 57, rfl⟩
abbrev main_while0b_call2_call0_v3 : Ref sig .tc := ⟨.hbm, 58, rfl⟩
abbrev main_while0b_call2_call0_c_1 : Ref sig .tc := ⟨.hbm, 59, rfl⟩
abbrev main_while0b_call2_call0_c_2 : Ref sig .tc := ⟨.hbm, 60, rfl⟩
abbrev main_while0b_call2_call0_v4 : Ref sig .tc := ⟨.hbm, 61, rfl⟩
abbrev main_while0b_call2_call0_v5 : Ref sig .tc := ⟨.hbm, 62, rfl⟩
abbrev main_while0b_call2_call0_v6 : Ref sig .tc := ⟨.hbm, 63, rfl⟩
abbrev main_while0b_call2_call0_v7 : Ref sig .tc := ⟨.hbm, 64, rfl⟩
abbrev main_while0b_call2_call0_c_3 : Ref sig .tc := ⟨.hbm, 65, rfl⟩
abbrev main_while0b_call2_call0_v8 : Ref sig .tc := ⟨.hbm, 66, rfl⟩
abbrev main_while0b_call2_call0_v9 : Ref sig .tc := ⟨.hbm, 67, rfl⟩
abbrev main_while0b_call2_call0_v10 : Ref sig .tc := ⟨.hbm, 68, rfl⟩
abbrev main_while0b_call2_call0_cst : Ref sig .tc := ⟨.hbm, 69, rfl⟩
abbrev main_while0b_call2_call0_v11 : Ref sig .tc := ⟨.hbm, 70, rfl⟩
abbrev main_while0b_call2_v0 : Ref sig .tc := ⟨.hbm, 71, rfl⟩
abbrev main_while0b_call2_call1_c : Ref sig .tc := ⟨.hbm, 72, rfl⟩
abbrev main_while0b_call2_call1_v0 : Ref sig .tc := ⟨.hbm, 73, rfl⟩
abbrev main_while0b_call2_call1_c_0 : Ref sig .tc := ⟨.hbm, 74, rfl⟩
abbrev main_while0b_call2_call1_v1 : Ref sig .tc := ⟨.hbm, 75, rfl⟩
abbrev main_while0b_call2_call1_v2 : Ref sig .tc := ⟨.hbm, 76, rfl⟩
abbrev main_while0b_call2_call1_v3 : Ref sig .tc := ⟨.hbm, 77, rfl⟩
abbrev main_while0b_call2_call1_c_1 : Ref sig .tc := ⟨.hbm, 78, rfl⟩
abbrev main_while0b_call2_call1_c_2 : Ref sig .tc := ⟨.hbm, 79, rfl⟩
abbrev main_while0b_call2_call1_v4 : Ref sig .tc := ⟨.hbm, 80, rfl⟩
abbrev main_while0b_call2_call1_v5 : Ref sig .tc := ⟨.hbm, 81, rfl⟩
abbrev main_while0b_call2_call1_v6 : Ref sig .tc := ⟨.hbm, 82, rfl⟩
abbrev main_while0b_call2_call1_v7 : Ref sig .tc := ⟨.hbm, 83, rfl⟩
abbrev main_while0b_call2_call1_c_3 : Ref sig .tc := ⟨.hbm, 84, rfl⟩
abbrev main_while0b_call2_call1_v8 : Ref sig .tc := ⟨.hbm, 85, rfl⟩
abbrev main_while0b_call2_call1_v9 : Ref sig .tc := ⟨.hbm, 86, rfl⟩
abbrev main_while0b_call2_call1_v10 : Ref sig .tc := ⟨.hbm, 87, rfl⟩
abbrev main_while0b_call2_call1_cst : Ref sig .tc := ⟨.hbm, 88, rfl⟩
abbrev main_while0b_call2_call1_v11 : Ref sig .tc := ⟨.hbm, 89, rfl⟩
abbrev main_while0b_call2_v1 : Ref sig .tc := ⟨.hbm, 90, rfl⟩
abbrev main_while0b_call2_v2 : Ref sig .tc := ⟨.hbm, 91, rfl⟩
abbrev main_while0b_call2_v3 : Ref sig .tc := ⟨.hbm, 92, rfl⟩
abbrev main_while0b_call2_v4 : Ref sig .tc := ⟨.hbm, 93, rfl⟩
abbrev main_while0b_call2_v5 : Ref sig .tc := ⟨.hbm, 94, rfl⟩
abbrev main_while0b_call2_v6 : Ref sig .tc := ⟨.hbm, 95, rfl⟩
abbrev main_while0b_call2_v7 : Ref sig .tc := ⟨.hbm, 96, rfl⟩
abbrev main_while0b_call2_v8 : Ref sig .tc := ⟨.hbm, 97, rfl⟩
abbrev main_while0b_call2_v9 : Ref sig .tc := ⟨.hbm, 98, rfl⟩
abbrev main_while0b_call2_v10 : Ref sig .tc := ⟨.hbm, 99, rfl⟩
abbrev main_while0b_call2_v11 : Ref sig .tc := ⟨.hbm, 100, rfl⟩
abbrev main_while0b_call2_v12 : Ref sig .tc := ⟨.hbm, 101, rfl⟩
abbrev main_while0b_call2_v13 : Ref sig .tc := ⟨.hbm, 102, rfl⟩
abbrev main_while0b_call2_v14 : Ref sig .tc := ⟨.hbm, 103, rfl⟩
abbrev main_while0b_call2_v15 : Ref sig .tc := ⟨.hbm, 104, rfl⟩
abbrev main_while0b_call2_cst : Ref sig .tc := ⟨.hbm, 105, rfl⟩
abbrev main_while0b_call2_v16 : Ref sig .tc := ⟨.hbm, 106, rfl⟩
abbrev main_while0b_call2_v17 : Ref sig .tc := ⟨.hbm, 107, rfl⟩
abbrev main_while0b_call2_cst_0 : Ref sig .tc := ⟨.hbm, 108, rfl⟩
abbrev main_while0b_call2_v18 : Ref sig .tc := ⟨.hbm, 109, rfl⟩
abbrev main_while0b_call2_v19 : Ref sig .tc := ⟨.hbm, 110, rfl⟩
abbrev main_while0b_call2_v20 : Ref sig .tc := ⟨.hbm, 111, rfl⟩
abbrev main_while0b_call2_v21 : Ref sig .tc := ⟨.hbm, 112, rfl⟩
abbrev main_while0b_call2_v22 : Ref sig .tc := ⟨.hbm, 113, rfl⟩
abbrev main_while0b_call2_v23 : Ref sig .tc := ⟨.hbm, 114, rfl⟩
abbrev main_while0b_call2_v24 : Ref sig .tc := ⟨.hbm, 115, rfl⟩
abbrev main_while0b_call2_v25 : Ref sig .tc := ⟨.hbm, 116, rfl⟩
abbrev main_while0b_call2_v26 : Ref sig .tc := ⟨.hbm, 117, rfl⟩
abbrev main_while0b_call2_v27 : Ref sig .tc := ⟨.hbm, 118, rfl⟩
abbrev main_while0b_call2_v28 : Ref sig .tc := ⟨.hbm, 119, rfl⟩
abbrev main_while0b_call2_v29 : Ref sig .tc := ⟨.hbm, 120, rfl⟩
abbrev main_while0b_call2_v30 : Ref sig .tc := ⟨.hbm, 121, rfl⟩
abbrev main_while0b_call2_v31 : Ref sig .tc := ⟨.hbm, 122, rfl⟩
abbrev main_while0b_call2_v32 : Ref sig .tc := ⟨.hbm, 123, rfl⟩
abbrev main_while0b_call2_v33 : Ref sig .tc := ⟨.hbm, 124, rfl⟩
abbrev main_while0b_call2_v34 : Ref sig .tc := ⟨.hbm, 125, rfl⟩
abbrev main_while0b_call2_v35 : Ref sig .tc := ⟨.hbm, 126, rfl⟩
abbrev main_while0b_call2_cst_1 : Ref sig .tc := ⟨.hbm, 127, rfl⟩
abbrev main_while0b_call2_v36 : Ref sig .tc := ⟨.hbm, 128, rfl⟩
abbrev main_while0b_call2_v37 : Ref sig .tc := ⟨.hbm, 129, rfl⟩
abbrev main_while0b_call2_v38 : Ref sig .tc := ⟨.hbm, 130, rfl⟩
abbrev main_while0b_call2_v39 : Ref sig .tc := ⟨.hbm, 131, rfl⟩
abbrev main_while0b_call2_v40 : Ref sig .tc := ⟨.hbm, 132, rfl⟩
abbrev main_while0b_call2_c : Ref sig .tc := ⟨.hbm, 133, rfl⟩
abbrev main_while0b_call2_v41 : Ref sig .tc := ⟨.hbm, 134, rfl⟩
abbrev main_while0b_call2_c_2 : Ref sig .tc := ⟨.hbm, 135, rfl⟩
abbrev main_while0b_call2_v42 : Ref sig .tc := ⟨.hbm, 136, rfl⟩
abbrev main_while0b_call2_v43 : Ref sig .tc := ⟨.hbm, 137, rfl⟩
abbrev main_while0b_call2_c_3 : Ref sig .tc := ⟨.hbm, 138, rfl⟩
abbrev main_while0b_call2_c_4 : Ref sig .tc := ⟨.hbm, 139, rfl⟩
abbrev main_while0b_v25 : Ref sig .tc := ⟨.hbm, 140, rfl⟩
abbrev main_while0b_c_17 : Ref sig .tc := ⟨.hbm, 141, rfl⟩
abbrev main_while0b_v26 : Ref sig .tc := ⟨.hbm, 142, rfl⟩
abbrev main_v17 : Ref sig .tc := ⟨.hbm, 143, rfl⟩
abbrev main_v18 : Ref sig .tc := ⟨.hbm, 144, rfl⟩
abbrev main_v19 : Ref sig .tc := ⟨.hbm, 145, rfl⟩
abbrev main_v20 : Ref sig .tc := ⟨.hbm, 146, rfl⟩
abbrev main_v21 : Ref sig .tc := ⟨.hbm, 147, rfl⟩
abbrev main_v22 : Ref sig .tc := ⟨.hbm, 148, rfl⟩
abbrev main_v23 : Ref sig .tc := ⟨.hbm, 149, rfl⟩

abbrev nD : Nat := 1
abbrev τ : Topo := Topo.v7x

variable {F : FTy → Type} [FloatOps F]

abbrev main_while0_count : Scf.Loop 32 := ⟨0#32, 128#32, 1#32⟩

class Facts₀ : Prop where
  reducesTo_S32x128x128_S32x128_d2 : S32x128x128.ReducesTo [2] S32x128
  h_S_ : 0 < S_.numel
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bcast_S32x128x1_S32x128x128_0_1_2 : S32x128x1.BroadcastsInDim S32x128x128 (![0, 1, 2] : Fin 3 → Fin S32x128x128.rank)
  bcast_S_S128 : S_.BroadcastsInDim S128 (![] : Fin 0 → Fin S128.rank)
  sliceFits_S128_S1 : S128.Slices (fun _ => 0) S1
  shapeCasts_S1_S_ : S1.ShapeCasts S_
  bcast_S_S1 : S_.BroadcastsInDim S1 (![] : Fin 0 → Fin S1.rank)
  reducesTo_S1_S_d0 : S1.ReducesTo [0] S_
  transposes_S256x128_S128x256_1_0 : S256x128.Transposes [1, 0] S128x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  slices_S32x256_S32x128_0_0 : S32x256.Slices ![0, 0] S32x128
  slices_S32x256_S32x128_0_128 : S32x256.Slices ![0, 128] S32x128
  transposes_S128x128_S128x128_1_0 : S128x128.Transposes [1, 0] S128x128
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S32x128_S32x1x128_0_2 : S32x128.BroadcastsInDim S32x1x128 (![0, 2] : Fin 2 → Fin S32x1x128.rank)
  updateFits_S32x128x128_S32x1x128 : S32x128x128.Slices (fun _ => 0) S32x1x128
  slices_S32x128x128_S32x1x128_0_0_0 : S32x128x128.Slices ![0, 0, 0] S32x1x128
  shapeCasts_S32x1x128_S32x128 : S32x1x128.ShapeCasts S32x128
  transposes_S2x128_S128x2_1_0 : S2x128.Transposes [1, 0] S128x2
  bcast_S2_S1x2_1 : S2.BroadcastsInDim S1x2 (![1] : Fin 1 → Fin S1x2.rank)
  bcast_S1x2_S32x2_0_1 : S1x2.BroadcastsInDim S32x2 (![0, 1] : Fin 2 → Fin S32x2.rank)
  dot_S32x128x768_S128x768_S32x128x128_2_1_01_0_n_n_wf : DotDims.WF S32x128x768 S128x768 S32x128x128 [2] [1] [0, 1] [0] [] []
  gather_S32x128x128_S1_S32x128_01_1_n_n_1_0_321128_wf : GatherDims.WF S32x128x128 S1 S32x128 [0, 1] [1] [] [1] [] 0 ![32, 1, 128]
  dot_S32x128_S32x128x128_S32x128_1_1_n_2_0_0_wf : DotDims.WF S32x128 S32x128x128 S32x128 [1] [1] [] [2] [0] [0]
  dot_S32x128_S128x256_S32x256_1_0_0_1_n_n_wf : DotDims.WF S32x128 S128x256 S32x256 [1] [0] [0] [1] [] []
  dot_S32x128_S128x128_S32x128_1_0_0_1_n_n_wf : DotDims.WF S32x128 S128x128 S32x128 [1] [0] [0] [1] [] []
  dot_S32x128_S128x2_S32x2_1_0_0_1_n_n_wf : DotDims.WF S32x128 S128x2 S32x2 [1] [0] [0] [1] [] []
  main_while0_ok : main_while0_count.OK

variable [Facts₀]

def dot_S32x128x768_S128x768_S32x128x128_2_1_01_0_n_n : DotDims S32x128x768 S128x768 S32x128x128 where
  lhsContracting := [2]
  rhsContracting := [1]
  lhsNonContracting := [0, 1]
  rhsNonContracting := [0]
  lhsBatch := []
  rhsBatch := []
  wf := dot_S32x128x768_S128x768_S32x128x128_2_1_01_0_n_n_wf
def gather_S32x128x128_S1_S32x128_01_1_n_n_1_0_321128 : GatherDims S32x128x128 S1 S32x128 where
  offsetDims := [0, 1]
  collapsedSliceDims := [1]
  operandBatchingDims := []
  startIndicesBatchingDims := []
  startIndexMap := [1]
  indexVectorDim := 0
  sliceSizes := ![32, 1, 128]
  wf := gather_S32x128x128_S1_S32x128_01_1_n_n_1_0_321128_wf
def dot_S32x128_S32x128x128_S32x128_1_1_n_2_0_0 : DotDims S32x128 S32x128x128 S32x128 where
  lhsContracting := [1]
  rhsContracting := [1]
  lhsNonContracting := []
  rhsNonContracting := [2]
  lhsBatch := [0]
  rhsBatch := [0]
  wf := dot_S32x128_S32x128x128_S32x128_1_1_n_2_0_0_wf
def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x2_S32x2_1_0_0_1_n_n : DotDims S32x128 S128x2 S32x2 where
  lhsContracting := [1]
  rhsContracting := [0]
  lhsNonContracting := [0]
  rhsNonContracting := [1]
  lhsBatch := []
  rhsBatch := []
  wf := dot_S32x128_S128x2_S32x2_1_0_0_1_n_n_wf

class Facts : Prop extends Facts₀ where

variable [Facts]
-- ==== Proof.KernelHead.lean ====
/-
  What the kernel returns. Its grid has one point and every window's block is its whole array, at block index zero: the
  body sees the whole operands and its one store fills the whole result. So the result array after the run is the body's
  arithmetic — the payload — of the four operand arrays as the call finds them. Two of those were made by the host just
  before the call: the features' row for node 0 (a slice of the second axis at 0, reshaped to a matrix) and the bias as a
  one-row matrix; the embedding matrix and the head's weights are arguments as launched.
-/
import proofs.«415053_j84911503442503_3_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Head

open Cert.KernelIdeal Cert.KernelIdeal.Gen Cert.KernelIdeal.Value

variable {F : FTy → Type} [FloatOps F]
variable (m : (ℓ : Loc nD τ sig) → Buf (Elt F) ℓ) (ρ : Dev nD → PrngReg)

theorem zeros : (![0, 0] : Fin 2 → Nat) = fun _ => 0 := funext fun a => by fin_cases a <;> rfl

/-- At the grid's one point every window's block starts at offset zero on both axes (decided over the grid). -/
theorem off_feat : ∀ t : Fin cfg0.N, (fun a => win0_0.index t a * main_v1.ty.shape.size a) = fun _ => 0 :=
  (by decide +kernel : ∀ t : Fin grid0.N, (fun a => win0_0.index t a * main_v1.ty.shape.size a) = fun _ => 0)
theorem off_wemb : ∀ t : Fin cfg0.N, (fun a => win0_1.index t a * main_arg2.ty.shape.size a) = fun _ => 0 :=
  (by decide +kernel : ∀ t : Fin grid0.N, (fun a => win0_1.index t a * main_arg2.ty.shape.size a) = fun _ => 0)
theorem off_wfc : ∀ t : Fin cfg0.N, (fun a => win0_2.index t a * main_arg11.ty.shape.size a) = fun _ => 0 :=
  (by decide +kernel : ∀ t : Fin grid0.N, (fun a => win0_2.index t a * main_arg11.ty.shape.size a) = fun _ => 0)
theorem off_bias : ∀ t : Fin cfg0.N, (fun a => win0_3.index t a * main_v2.ty.shape.size a) = fun _ => 0 :=
  (by decide +kernel : ∀ t : Fin grid0.N, (fun a => win0_3.index t a * main_v2.ty.shape.size a) = fun _ => 0)
theorem off_out : ∀ t : Fin cfg0.N, (fun a => win0_4.index t a * main_v3.ty.shape.size a) = fun _ => 0 :=
  (by decide +kernel : ∀ t : Fin grid0.N, (fun a => win0_4.index t a * main_v3.ty.shape.size a) = fun _ => 0)

/-- So each input window's block is the whole array the call finds. -/
theorem blk_feat (c : Dev nD) (t : Fin cfg0.N) : iblk m c 0 t = V m c main_v1 :=
  Memref.read_access_unit_zero (Elt F) main_v1 (off_feat t) (fun a => by rw [congrFun (off_feat t) a]; simp) (V m c main_v1)
theorem blk_wemb (c : Dev nD) (t : Fin cfg0.N) : iblk m c 1 t = V m c main_arg2 :=
  Memref.read_access_unit_zero (Elt F) main_arg2 (off_wemb t) (fun a => by rw [congrFun (off_wemb t) a]; simp) (V m c main_arg2)
theorem blk_wfc (c : Dev nD) (t : Fin cfg0.N) : iblk m c 2 t = V m c main_arg11 :=
  Memref.read_access_unit_zero (Elt F) main_arg11 (off_wfc t) (fun a => by rw [congrFun (off_wfc t) a]; simp) (V m c main_arg11)
theorem blk_bias (c : Dev nD) (t : Fin cfg0.N) : iblk m c 3 t = V m c main_v2 :=
  Memref.read_access_unit_zero (Elt F) main_v2 (off_bias t) (fun a => by rw [congrFun (off_bias t) a]; simp) (V m c main_v2)

/-- The body's arithmetic of the four operand arrays as the call finds them. -/
def outOf (c : Dev nD) : Buf (Elt F) ((c : Thread nD τ).loc main_v3) :=
  k0_pay1 (V m c main_v1) (V m c main_arg2) (V m c main_arg11) (V m c main_v2)

/-- What the one point writes back is the whole of `outOf`. -/
theorem flushed_eq (c : Dev nD) (t : Fin cfg0.N) :
    (dats m 0 c).flushed 4 t = ((cfg0.win 4).blk t).view.read (Elt F) (outOf m c) := by
  show (cfg0.win 4).cut (grid0.coords t) ((dats m 0 c).after 4 t) = _
  rw [after0_4]
  unfold out0_4
  rw [View.canon_unit_zero zeros]
  simp only [View.ld_unit_zero (S := S32x768) zeros, View.ld_unit_zero (S := S128x768) zeros,
    View.ld_unit_zero (S := S2x128) zeros, View.ld_unit_zero (S := S1x2) zeros]
  rw [blk_feat, blk_wemb, blk_wfc, blk_bias]
  exact (Memref.read_access_unit_zero (Elt F) main_v3 (off_out t) (fun a => by rw [congrFun (off_out t) a]; simp) (outOf m c)).symm

/-- The result window's block starts at element zero and has the array's own extent, on both axes (decided over the grid). -/
theorem out_whole : ∀ t : Fin cfg0.N, ∀ a : Fin 2,
    win0_4.index t a * win0_4.size a = 0 ∧ win0_4.xsize (grid0.coords t) a = S32x2.size a :=
  (by decide +kernel : ∀ t : Fin grid0.N, ∀ a : Fin 2,
    win0_4.index t a * win0_4.size a = 0 ∧ win0_4.xsize (grid0.coords t) a = S32x2.size a)

/-- Every index of the result array lies in the block of any point: the block is the whole array. -/
theorem mem_out (t : Fin cfg0.N) (i : S32x2.Idx) : i ∈ ((cfg0.win 4).blk t).view.set := by
  show i ∈ ((View.whole main_v3).slice (win0_4.rect t)).set
  rw [View.set_slice_whole, Rect.mem_set_unit]
  intro a
  obtain ⟨h0, h1⟩ := out_whole t a
  rw [h0, h1, Nat.zero_add]
  exact ⟨Nat.zero_le _, (i a).isLt⟩

/-- The one point's block covers the result array, so the array ends holding `outOf`. -/
theorem final (c : Dev nD) : (dats m 0 c).arrAt 4 cfg0.N = outOf m c :=
  (dats m 0 c).arrAt_eq_of_cover 4 (outOf m c) (fun t _ => flushed_eq m c t) fun i =>
    ⟨⟨0, by decide⟩, flush0_4 _, mem_out _ i⟩

/-- The two operands the host makes before the call: the features' row for node 0 as a matrix, and the bias as a
    one-row matrix. -/
theorem V_feat (c : Dev nD) :
    (V m c main_v1 : S32x768.Idx → Elt F .f32)
      = shapeCast S32x768 (extractStridedSlice S32x1x768 ![0, 0, 0] (m ((c : Thread nD τ).loc main_arg0)) slices_S32x128x768_S32x1x768_0_0_0)
          shapeCasts_S32x1x768_S32x768 := by
  dsimp only [Gen.V, Gen.hostOps0]
  after_results
  rfl
theorem V_bias (c : Dev nD) :
    (V m c main_v2 : S1x2.Idx → Elt F .f32) = shapeCast S1x2 (m ((c : Thread nD τ).loc main_arg12)) shapeCasts_S2_S1x2 := by
  dsimp only [Gen.V, Gen.hostOps0]
  after_results
  rfl

/-- The payload of the operands prepared from the launched arguments. -/
def outOfArgs (c : Dev nD) : Buf (Elt F) ((c : Thread nD τ).loc main_v3) :=
  k0_pay1
    (shapeCast S32x768 (extractStridedSlice S32x1x768 ![0, 0, 0] (m ((c : Thread nD τ).loc main_arg0)) slices_S32x128x768_S32x1x768_0_0_0)
      shapeCasts_S32x1x768_S32x768)
    (m ((c : Thread nD τ).loc main_arg2)) (m ((c : Thread nD τ).loc main_arg11))
    (shapeCast S1x2 (m ((c : Thread nD τ).loc main_arg12)) shapeCasts_S2_S1x2)

theorem outOf_eq (c : Dev nD) : outOf m c = outOfArgs m c := by
  unfold outOf outOfArgs
  rw [V_feat, V_bias, V_main_arg2, V_main_arg11]

/-- THE RUN, read: the result array at the payload of the launched arguments, every argument unchanged. -/
theorem run : θ_run defs (onTc (τ := τ) (main (F := F))) ⟨m, fun _ => 0, ρ⟩ fun r => ∀ c : Dev nD,
      r.2.mem ((c : Thread nD τ).loc main_v3) = outOfArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans ((final m c).trans (outOf_eq m c)), (h c).2⟩) (run_blocks m ρ)

end Cert.KernelIdeal.Head

end
-- ==== Proof.HeadSpec.lean ====
/-
  The function both programs compute, on the extended reals, index by index: the classifier head read off the embedding
  of node 0. For sample b and class j,

      y[b, j] = Σ_o ( Σ_f h[b, 0, f] · W_emb[o, f] ) · W_fc[j, o]  +  b_fc[j].

  Nothing else of the features (no node but node 0) and none of the other nine arguments enters it.
-/
import Idealize.ShloMosaic.PureOps.Ideal
import Idealize.ShloMosaic.Lib.ValueIdx

noncomputable section

open Idealize.ShloMosaic Idealize.ShloMosaic.ValueIdx
open scoped BigOperators

namespace Cert.HeadSpec

/-- The head on node 0's embedding: features [32, 128, 768], embedding matrix [128, 768], head weights [2, 128], head
    bias [2]; result [32, 2]. -/
def head (h : FVec Ideal ⟨3, ![32, 128, 768]⟩ .f32) (wemb : FVec Ideal ⟨2, ![128, 768]⟩ .f32)
    (wfc : FVec Ideal ⟨2, ![2, 128]⟩ .f32) (bfc : FVec Ideal ⟨1, ![2]⟩ .f32) : FVec Ideal ⟨2, ![32, 2]⟩ .f32 :=
  fun i => (∑ o : Fin 128, (∑ f : Fin 768, h (ix3 (i 0) (0 : Fin 128) f) * wemb (ix2 o f)) * wfc (ix2 (i 1) o))
    + bfc (ix1 (i 1))

/-- The head at sample `b` and class `j`. -/
theorem head_apply (h : FVec Ideal ⟨3, ![32, 128, 768]⟩ .f32) (wemb : FVec Ideal ⟨2, ![128, 768]⟩ .f32)
    (wfc : FVec Ideal ⟨2, ![2, 128]⟩ .f32) (bfc : FVec Ideal ⟨1, ![2]⟩ .f32) (b : Fin 32) (j : Fin 2) :
    head h wemb wfc bfc (ix2 b j)
      = (∑ o : Fin 128, (∑ f : Fin 768, h (ix3 b (0 : Fin 128) f) * wemb (ix2 o f)) * wfc (ix2 j o)) + bfc (ix1 j) := rfl

end Cert.HeadSpec

end
-- ==== Proof.LibMatmulDot.lean ====
/-
  On the extended reals a kernel's matrix product into a zero accumulator and the host's dot_general over the same
  dimension numbers are one function, whatever precision either names: each is, at every output index, the sum over the
  contraction index of the operands' products.
-/
import Idealize.ShloMosaic.PureOps.Ideal.Laws

noncomputable section

namespace Idealize.ShloMosaic.MatmulDot

open Idealize.ShloMosaic

/-- A `tpu.matmul` into the f32 zero splat is the host's `dot_general` of the same operands over the same dimension
    numbers, at the ideal values. -/
theorem matmul_zero_eq_dotGeneral {sl sr so : Shape} {φ₁ φ₂ : FTy} (d : DotDims sl sr so) (p p' : Option ContractPrecision)
    (l : FVec Ideal sl φ₁) (r : FVec Ideal sr φ₂) :
    matmul d p l r (constant so .f32 0x00000000#32) = Host.dotGeneral d p' l r := by
  funext j
  show FloatOps.matmul d p l r _ j = FloatOps.dotGeneral d p' _ l r j
  rw [Ideal.matmul_constant_zero_apply, Ideal.dotGeneral_apply]

end Idealize.ShloMosaic.MatmulDot

end
-- ==== Proof.KernelAlgebra.lean ====
/-
  The kernel's arithmetic is the head. Its payload is two matrix products and an addition: the features' row for node 0
  (a [32, 768] matrix) times the transposed embedding matrix, into zero; that times the transposed head weights, into
  zero; plus the one-row bias laid along every row. The changes of float format in it are the identity on the extended
  reals. Read at sample b and class j it is the double sum of the specification, once the two operands the host prepared
  are read back to the arguments: entry (b, f) of the sliced and reshaped features is h[b, 0, f], and entry (0, j) of the
  reshaped bias is b_fc[j].
-/
import proofs.«415053_j84911503442503_3_alg».proof.Proof.Gen.KernelIdeal.Skeleton
import proofs.«415053_j84911503442503_3_alg».proof.Proof.HeadSpec
import proofs.«415053_j84911503442503_3_alg».proof.Proof.LibMatmulDot
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open Idealize.ShloMosaic Idealize.ShloMosaic.ValueIdx Idealize.ShloMosaic.StackMember
open scoped BigOperators

namespace Cert.KernelIdeal.Algebra

open Cert.KernelIdeal Cert.KernelIdeal.Gen Cert.HeadSpec

/-- The payload of four operand matrices, at sample `b` and class `j`: the inner sum runs over the 768 features, the
    outer over the 128 embedding coordinates; the second operand of each product is read transposed. -/
theorem pay_apply (x0 : FVec Ideal S32x768 .f32) (x1 : FVec Ideal S128x768 .f32) (x2 : FVec Ideal S2x128 .f32)
    (x3 : FVec Ideal S1x2 .f32) (b : Fin 32) (j : Fin 2) :
    k0_pay1 (F := Ideal) x0 x1 x2 x3 (ix2 b j)
      = (∑ o : Fin 128, (∑ f : Fin 768, x0 (ix2 b f) * x1 (ix2 o f)) * x2 (ix2 j o)) + x3 (ix2 (0 : Fin 1) j) := by
  unfold k0_pay1
  rw [addf_apply]
  refine congrArg₂ (· + ·) ?_ ?_
  · rw [MatmulDot.matmul_zero_eq_dotGeneral _ _ none]
    refine (dotGeneral_plain_apply (m := 32) (n := 2) (k := 128) none _ _ b j).trans ?_
    refine Finset.sum_congr rfl fun o _ => ?_
    refine congrArg₂ (· * ·) ?_ ?_
    · rw [MatmulDot.matmul_zero_eq_dotGeneral _ _ none]
      refine (dotGeneral_plain_apply (m := 32) (n := 128) (k := 768) none _ _ b o).trans ?_
      refine Finset.sum_congr rfl fun f _ => ?_
      refine congrArg₂ (· * ·) ?_ ?_
      · rw [shapeCast_self]; rfl
      · exact transpose_ix2_apply _ _ f o
    · exact transpose_ix2_apply x2 _ o j
  · rw [shapeCast_self]
    refine broadcastTo_apply x3 _ (ix2 b j) (ix2 (0 : Fin 1) j) fun a => ?_
    match a with
    | ⟨0, _⟩ => rfl
    | ⟨1, _⟩ => rfl

/-- THE KERNEL'S PAYLOAD of the operands the host prepares from the arguments is the head of the arguments. -/
theorem pay_eq_head (h : FVec Ideal S32x128x768 .f32) (wemb : FVec Ideal S128x768 .f32) (wfc : FVec Ideal S2x128 .f32)
    (bfc : FVec Ideal S2 .f32) :
    k0_pay1 (F := Ideal)
        (shapeCast S32x768 (extractStridedSlice S32x1x768 ![0, 0, 0] h slices_S32x128x768_S32x1x768_0_0_0) shapeCasts_S32x1x768_S32x768)
        wemb wfc (shapeCast S1x2 bfc shapeCasts_S2_S1x2)
      = head h wemb wfc bfc := by
  funext i
  obtain ⟨b, j, rfl⟩ : ∃ (b : Fin 32) (j : Fin 2), i = ix2 b j := ⟨i 0, i 1, eq_ix2 i⟩
  rw [pay_apply, head_apply]
  refine congrArg₂ (· + ·) (Finset.sum_congr rfl fun o _ => congrArg₂ (· * ·) (Finset.sum_congr rfl fun f _ =>
    congrArg₂ (· * ·) ?_ rfl) rfl) ?_
  · refine (shapeCast_apply _ _ (ix2 b f) (ix3 b (0 : Fin 1) f) ?_).trans ?_
    · rw [Shape.rowMajor_val_three, Shape.rowMajor_val_two]
      show (b.val * 1 + 0) * 768 + f.val = b.val * 768 + f.val
      omega
    · refine extractStridedSlice_apply _ h _ (ix3 b (0 : Fin 1) f) (ix3 b (0 : Fin 128) f) fun a => ?_
      match a with
      | ⟨0, _⟩ => show b.val = 0 + b.val; omega
      | ⟨1, _⟩ => rfl
      | ⟨2, _⟩ => show f.val = 0 + f.val; omega
  · refine shapeCast_apply bfc _ (ix2 (0 : Fin 1) j) (ix1 j) ?_
    rw [Shape.rowMajor_val_one, Shape.rowMajor_val_two]
    show j.val = 0 * 2 + j.val
    omega

end Cert.KernelIdeal.Algebra

end
-- ==== Proof.LibLoopKept.lean ====
/-
  What a counted host loop leaves alone. The contents of the buffers round the loop are a fold: the operations of the
  stretches before the loop, then the condition's operations and the body's stretches once per trip, the condition's once
  more, then the stretches after the loop. An operation changes only the buffers it writes, so a buffer that no operation
  of a list of stretches writes reads the same after their fold as before it; one that neither the condition nor the body
  writes has at every trip, and at the loop's exit, the contents it had at the loop's entry; and one that nothing in the
  program writes ends with the contents the program was launched with.
-/
import Idealize.ShloMosaic.Lib.StableHlo.RunLoop

noncomputable section

namespace Idealize.ShloMosaic.StableHlo

variable {nD : Nat} {τ : Topo} {sig : RefSig} {F : FTy → Type}

/-- A buffer that no operation of any of the stretches writes keeps its contents through their fold. -/
theorem afterL_of_forall_not_mem {b : DevRef τ sig} :
    ∀ (items : List (List (HloOp τ sig (Elt F)))) (V : Valuation τ sig (Elt F)),
      (∀ ops ∈ items, ∀ op ∈ ops, b ∉ op.writes) → afterL items V b = V b
  | [], _, _ => rfl
  | ops :: rest, V, h => by
    rw [afterL_cons, afterL_of_forall_not_mem rest _ fun o ho => h o (List.mem_cons_of_mem _ ho),
      after_of_forall_not_mem ops V (h ops List.mem_cons_self)]

/-- A buffer that neither the condition nor the body writes has, before every run of the condition, the contents it had
    at the loop's entry: by induction on the number of trips made. -/
theorem atTrip_of_forall_not_mem {b : DevRef τ sig} (condOps : List (HloOp τ sig (Elt F)))
    (bodyI : List (List (HloOp τ sig (Elt F)))) (W₀ : Dev nD → Valuation τ sig (Elt F))
    (hc : ∀ op ∈ condOps, b ∉ op.writes) (hb : ∀ ops ∈ bodyI, ∀ op ∈ ops, b ∉ op.writes) (c : Dev nD) :
    ∀ k : ℕ, atTrip condOps bodyI W₀ k c b = W₀ c b
  | 0 => rfl
  | k + 1 => by
    rw [atTrip_succ, afterL_of_forall_not_mem bodyI _ hb, after_of_forall_not_mem condOps _ hc,
      atTrip_of_forall_not_mem condOps bodyI W₀ hc hb c k]

/-- So it has them still when the condition has failed and the loop is left. -/
theorem exit_of_forall_not_mem {b : DevRef τ sig} (condOps : List (HloOp τ sig (Elt F)))
    (bodyI : List (List (HloOp τ sig (Elt F)))) (W₀ : Dev nD → Valuation τ sig (Elt F))
    (hc : ∀ op ∈ condOps, b ∉ op.writes) (hb : ∀ ops ∈ bodyI, ∀ op ∈ ops, b ∉ op.writes) (c : Dev nD) (n : ℕ) :
    after condOps (atTrip condOps bodyI W₀ n c) b = W₀ c b := by
  rw [after_of_forall_not_mem condOps _ hc, atTrip_of_forall_not_mem condOps bodyI W₀ hc hb c n]

/-- A buffer that no operation of the whole program writes — not before the loop, not in the condition or the body, not
    after the loop — ends with the contents the program was launched with. -/
theorem finalContents_of_forall_not_mem {b : DevRef τ sig} (condOps : List (HloOp τ sig (Elt F)))
    (preI bodyI postI : List (List (HloOp τ sig (Elt F)))) (n : ℕ) (m : (ℓ : Loc nD τ sig) → Buf (Elt F) ℓ) (c : Dev nD)
    (hpre : ∀ ops ∈ preI, ∀ op ∈ ops, b ∉ op.writes) (hc : ∀ op ∈ condOps, b ∉ op.writes)
    (hb : ∀ ops ∈ bodyI, ∀ op ∈ ops, b ∉ op.writes) (hpost : ∀ ops ∈ postI, ∀ op ∈ ops, b ∉ op.writes) :
    finalContents condOps preI bodyI postI n m c b = launchContents m c b := by
  show afterL postI (after condOps (atTrip condOps bodyI (entryContents preI m) n c)) b = _
  rw [afterL_of_forall_not_mem postI _ hpost, exit_of_forall_not_mem condOps bodyI _ hc hb c n]
  exact afterL_of_forall_not_mem preI _ hpre

end Idealize.ShloMosaic.StableHlo

end
-- ==== Proof.RefKept.lean ====
/-
  Which buffers the reference program leaves alone. Its references are numbered in the order the program names them:
  the thirteen arguments are 0 to 12, the embedding of every node (the first operation's result) is 13, the values
  computed before the loop follow, the loop's carried values are 36 to 48, and everything the condition, the body and
  the stretch after the loop compute is numbered above those. Each operation writes exactly one reference, its result. So
  no operation of the loop or after it writes a reference numbered below 14, and no operation at all writes one numbered
  below 13: the node embeddings are, at the loop's exit, what the first operation left, and the arguments end as launched.
-/
import proofs.«415053_j84911503442503_3_alg».proof.Proof.Gen.ReferenceIdeal.Run
import proofs.«415053_j84911503442503_3_alg».proof.Proof.LibLoopKept

set_option maxRecDepth 100000

noncomputable section

namespace Cert.ReferenceIdeal.Kept

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-- A reference whose number is below `n` is not the one result an operation writes, when that result's number is at
    least `n`. -/
theorem not_written {n : ℕ} {r y : Ref sig .tc} (hr : r.idx.val < n) (hy : n ≤ y.idx.val)
    (h : (Proc.devRef (τ := τ) .tc r) ∈ ({Proc.devRef .tc y} : Finset (DevRef τ sig))) : False := by
  have e : r = y := Proc.devRef_injective _ (Finset.mem_singleton.mp h)
  subst e; omega

/-- The condition's two operations write references 49 and 50. -/
theorem cond_high : ∀ op ∈ (condOps (F := F)), ∀ r : Ref sig .tc, r.idx.val < 14 → Proc.devRef .tc r ∉ op.writes := by
  intro op hop r hr; fin_cases hop <;> exact fun h => not_written hr (by decide) h

/-- The body's first stretch (the node's number read off the schedule) writes references 51 and 52. -/
theorem body0_high : ∀ op ∈ (while0Ops0 : List (HloOp τ sig (Elt F))), ∀ r : Ref sig .tc, r.idx.val < 14 →
    Proc.devRef .tc r ∉ op.writes := by
  intro op hop r hr; fin_cases hop <;> exact fun h => not_written hr (by decide) h

set_option maxHeartbeats 4000000 in
/-- The body's second stretch (the gated recurrent update of one node) writes references 53 to 140. -/
theorem body1_high : ∀ op ∈ (while0Ops0_1 : List (HloOp τ sig (Elt F))), ∀ r : Ref sig .tc, r.idx.val < 14 →
    Proc.devRef .tc r ∉ op.writes := by
  intro op hop r hr; fin_cases hop <;> exact fun h => not_written hr (by decide) h

/-- The body's last stretch (the counter's step, and the two copies into carried values) writes references 141, 142, 47
    and 48. -/
theorem body2_high : ∀ op ∈ (while0Ops0_2 : List (HloOp τ sig (Elt F))), ∀ r : Ref sig .tc, r.idx.val < 14 →
    Proc.devRef .tc r ∉ op.writes := by
  intro op hop r hr; fin_cases hop <;> exact fun h => not_written hr (by decide) h

/-- The stretch after the loop (the classifier head) writes references 143 to 149. -/
theorem post_high : ∀ op ∈ (hostOps0_3 : List (HloOp τ sig (Elt F))), ∀ r : Ref sig .tc, r.idx.val < 14 →
    Proc.devRef .tc r ∉ op.writes := by
  intro op hop r hr; fin_cases hop <;> exact fun h => not_written hr (by decide) h

/-- The three stretches before the loop write references 13 to 48. -/
theorem pre0_high : ∀ op ∈ (hostOps0 : List (HloOp τ sig (Elt F))), ∀ r : Ref sig .tc, r.idx.val < 13 →
    Proc.devRef .tc r ∉ op.writes := by
  intro op hop r hr; fin_cases hop <;> exact fun h => not_written hr (by decide) h
theorem pre1_high : ∀ op ∈ (hostOps0_1 : List (HloOp τ sig (Elt F))), ∀ r : Ref sig .tc, r.idx.val < 13 →
    Proc.devRef .tc r ∉ op.writes := by
  intro op hop r hr; fin_cases hop <;> exact fun h => not_written hr (by decide) h
theorem pre2_high : ∀ op ∈ (hostOps0_2 : List (HloOp τ sig (Elt F))), ∀ r : Ref sig .tc, r.idx.val < 13 →
    Proc.devRef .tc r ∉ op.writes := by
  intro op hop r hr; fin_cases hop <;> exact fun h => not_written hr (by decide) h

/-- No operation of the body writes a reference numbered below 14. -/
theorem body_high {r : Ref sig .tc} (hr : r.idx.val < 14) :
    ∀ ops ∈ (bodyI (F := F)), ∀ op ∈ ops, Proc.devRef .tc r ∉ op.writes := by
  intro ops hops op hop
  rcases List.mem_cons.mp hops with rfl | hops
  · exact body0_high op hop r hr
  rcases List.mem_cons.mp hops with rfl | hops
  · exact body1_high op hop r hr
  rcases List.mem_cons.mp hops with rfl | hops
  · exact body2_high op hop r hr
  exact nomatch hops

/-- Nor does the stretch after the loop. -/
theorem postI_high {r : Ref sig .tc} (hr : r.idx.val < 14) :
    ∀ ops ∈ (postI (F := F)), ∀ op ∈ ops, Proc.devRef .tc r ∉ op.writes := by
  intro ops hops op hop
  rcases List.mem_cons.mp hops with rfl | hops
  · exact post_high op hop r hr
  exact nomatch hops

/-- No operation before the loop writes a reference numbered below 13: an argument. -/
theorem preI_high {r : Ref sig .tc} (hr : r.idx.val < 13) :
    ∀ ops ∈ (preI (F := F)), ∀ op ∈ ops, Proc.devRef .tc r ∉ op.writes := by
  intro ops hops op hop
  rcases List.mem_cons.mp hops with rfl | hops
  · exact pre0_high op hop r hr
  rcases List.mem_cons.mp hops with rfl | hops
  · exact pre1_high op hop r hr
  rcases List.mem_cons.mp hops with rfl | hops
  · exact pre2_high op hop r hr
  exact nomatch hops

variable (m : (ℓ : Loc nD τ sig) → Buf (Elt F) ℓ)

/-- AT THE LOOP'S EXIT a reference numbered below 14 — an argument, or the node embeddings — holds what it held at the
    loop's entry, however many trips were made. -/
theorem exit_eq_entry {r : Ref sig .tc} (hr : r.idx.val < 14) (c : Dev nD) (n : ℕ) :
    after condOps (atTrip condOps bodyI (entryContents preI m) n c) (Proc.devRef .tc r)
      = entryContents preI m c (Proc.devRef .tc r) :=
  exit_of_forall_not_mem condOps bodyI _ (fun op hop => cond_high op hop r hr) (body_high hr) c n

/-- AN ARGUMENT ends as launched. -/
theorem arg_final {r : Ref sig .tc} (hr : r.idx.val < 13) (c : Dev nD) :
    finalContents condOps preI bodyI postI 128 m c (Proc.devRef .tc r) = m ((c.tc : Thread nD τ).loc r) :=
  finalContents_of_forall_not_mem condOps preI bodyI postI 128 m c (preI_high hr)
    (fun op hop => cond_high op hop r (by omega)) (body_high (by omega)) (postI_high (by omega))

end Cert.ReferenceIdeal.Kept

end
-- ==== Proof.RefHead.lean ====
/-
  What the reference program returns. It embeds every node (one product of the features with the embedding matrix over
  all nodes at once), sweeps the nodes bottom-up with a gated recurrent update in a loop of 128 trips, and then reads the
  classifier head off the embedding of node 0 AS FIRST COMPUTED: the stretch after the loop takes row 0 of the first
  operation's result, multiplies it by the head's weights and adds the bias. The loop's own results are not read. So the
  returned array is a term of four of the thirteen arguments: the features, the embedding matrix, the head's weights and
  the head's bias. The stretch after the loop gives the term over whatever the buffers hold at the loop's exit; the loop
  leaves the node embeddings and the arguments alone; and at the loop's entry the node embeddings are the first
  operation's result on the launched arguments.
-/
import proofs.«415053_j84911503442503_3_alg».proof.Proof.RefKept

set_option maxRecDepth 100000

noncomputable section

namespace Cert.ReferenceIdeal.Head

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-- The head over the embeddings `H` of all nodes: row 0 of `H`, times the transposed head weights, plus the bias
    laid along every row. -/
def headOver (H : FVec F S32x128x128 .f32) (wfc : FVec F S2x128 .f32) (bfc : FVec F S2 .f32) : FVec F S32x2 .f32 :=
  addf (Host.dotGeneral dot_S32x128_S128x2_S32x2_1_0_0_1_n_n none
      (shapeCast S32x128 (extractStridedSlice S32x1x128 ![0, 0, 0] H slices_S32x128x128_S32x1x128_0_0_0) shapeCasts_S32x1x128_S32x128)
      (transpose S128x2 [1, 0] wfc transposes_S2x128_S128x2_1_0))
    (broadcastInDim S32x2 ![0, 1] bcast_S1x2_S32x2_0_1 (broadcastInDim S1x2 ![1] bcast_S2_S1x2_1 bfc))

/-- The returned array as a term of the features, the embedding matrix, the head's weights and the head's bias. -/
def headTerm (h : FVec F S32x128x768 .f32) (wemb : FVec F S128x768 .f32) (wfc : FVec F S2x128 .f32) (bfc : FVec F S2 .f32) :
    FVec F S32x2 .f32 :=
  headOver (Host.dotGeneral dot_S32x128x768_S128x768_S32x128x128_2_1_01_0_n_n none h wemb) wfc bfc

/-- The stretch after the loop leaves the result at the head over the node embeddings, the head's weights and the
    head's bias as the buffers hold them when the stretch starts. -/
theorem post_read (X : Valuation τ sig (Elt F)) :
    after hostOps0_3 X (Proc.devRef .tc main_v23)
      = headOver (X (Proc.devRef .tc main_v0)) (X (Proc.devRef .tc main_arg11)) (X (Proc.devRef .tc main_arg12)) := by
  after_results
  rfl

variable (m : (ℓ : Loc nD τ sig) → Buf (Elt F) ℓ) (ρ : Dev nD → PrngReg)

/-- At the loop's entry the node embeddings are the first operation's result: the features times the embedding matrix. -/
theorem entry_embed (c : Dev nD) :
    entryContents preI m c (Proc.devRef .tc main_v0)
      = Host.dotGeneral dot_S32x128x768_S128x768_S32x128x128_2_1_01_0_n_n none
          (m ((c.tc : Thread nD τ).loc main_arg0)) (m ((c.tc : Thread nD τ).loc main_arg2)) := by
  simp only [entryContents, afterL_cons, afterL_nil]
  after_results

/-- At the loop's entry an argument is as launched. -/
theorem entry_arg {r : Ref sig .tc} (hr : r.idx.val < 13) (c : Dev nD) :
    entryContents preI m c (Proc.devRef .tc r) = m ((c.tc : Thread nD τ).loc r) :=
  afterL_of_forall_not_mem preI _ (Kept.preI_high hr)

/-- THE RESULT at the end of the fold is the term of the launched arguments. -/
theorem result_fold (c : Dev nD) :
    finalContents condOps preI bodyI postI 128 m c (Proc.devRef .tc main_v23)
      = headTerm (m ((c.tc : Thread nD τ).loc main_arg0)) (m ((c.tc : Thread nD τ).loc main_arg2))
          (m ((c.tc : Thread nD τ).loc main_arg11)) (m ((c.tc : Thread nD τ).loc main_arg12)) := by
  show afterL postI (after condOps (atTrip condOps bodyI (entryContents preI m) 128 c)) (Proc.devRef .tc main_v23) = _
  rw [afterL_cons, afterL_nil, post_read,
    Kept.exit_eq_entry m (r := main_v0) (by decide) c 128, Kept.exit_eq_entry m (r := main_arg11) (by decide) c 128,
    Kept.exit_eq_entry m (r := main_arg12) (by decide) c 128,
    entry_embed, entry_arg m (r := main_arg11) (by decide), entry_arg m (r := main_arg12) (by decide)]
  rfl

/-- THE RUN, read: every weakly fair execution terminates with the result at the term and every argument as launched. -/
theorem run : θ_run (defs (F := F)) (onTc (τ := τ) (main (F := F))) ⟨m, fun _ => 0, ρ⟩ fun r => ∀ c : Dev nD,
      r.2.mem ((c.tc : Thread nD τ).loc main_v23)
        = headTerm (m ((c.tc : Thread nD τ).loc main_arg0)) (m ((c.tc : Thread nD τ).loc main_arg2))
            (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c main_v23 rfl).trans (result_fold m c),
      (h c main_arg0 rfl).trans (Kept.arg_final m (by decide) c),
      (h c main_arg1 rfl).trans (Kept.arg_final m (by decide) c),
      (h c main_arg2 rfl).trans (Kept.arg_final m (by decide) c),
      (h c main_arg3 rfl).trans (Kept.arg_final m (by decide) c),
      (h c main_arg4 rfl).trans (Kept.arg_final m (by decide) c),
      (h c main_arg5 rfl).trans (Kept.arg_final m (by decide) c),
      (h c main_arg6 rfl).trans (Kept.arg_final m (by decide) c),
      (h c main_arg7 rfl).trans (Kept.arg_final m (by decide) c),
      (h c main_arg8 rfl).trans (Kept.arg_final m (by decide) c),
      (h c main_arg9 rfl).trans (Kept.arg_final m (by decide) c),
      (h c main_arg10 rfl).trans (Kept.arg_final m (by decide) c),
      (h c main_arg11 rfl).trans (Kept.arg_final m (by decide) c),
      (h c main_arg12 rfl).trans (Kept.arg_final m (by decide) c)⟩)
    (run_fold m ρ)

end Cert.ReferenceIdeal.Head

end
-- ==== Proof.RefAlgebra.lean ====
/-
  The reference's term is the head. Its first product contracts the features' last axis with the embedding matrix's
  last axis, for every sample and node: at (b, n, o) it is Σ_f h[b, n, f] · W_emb[o, f]. Row 0 of the node axis, reshaped
  to a matrix, is that at n = 0. The head's product with the transposed weights sums it against W_fc[j, o], and the bias,
  laid first as a one-row matrix and then along every row, adds b_fc[j].
-/
import proofs.«415053_j84911503442503_3_alg».proof.Proof.RefHead
import proofs.«415053_j84911503442503_3_alg».proof.Proof.HeadSpec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open Idealize.ShloMosaic Idealize.ShloMosaic.ValueIdx Idealize.ShloMosaic.StackMember
open scoped BigOperators

namespace Cert.ReferenceIdeal.Algebra

open Cert.ReferenceIdeal Cert.ReferenceIdeal.Head Cert.HeadSpec

/-- The embedding of every node, at sample `b`, node `n` and coordinate `o`: the contraction index of the product is its
    one coordinate, the feature; the left operand is read at (b, n, f) and the right at (o, f). -/
theorem embed_apply (h : FVec Ideal S32x128x768 .f32) (wemb : FVec Ideal S128x768 .f32) (b : Fin 32) (n : Fin 128) (o : Fin 128) :
    Host.dotGeneral dot_S32x128x768_S128x768_S32x128x128_2_1_01_0_n_n none h wemb (ix3 b n o)
      = ∑ f : Fin 768, h (ix3 b n f) * wemb (ix2 o f) := by
  show FloatOps.dotGeneral _ none _ h wemb (ix3 b n o) = _
  rw [Ideal.dotGeneral_apply,
    ← Equiv.sum_comp (contrEquiv1 dot_S32x128x768_S128x768_S32x128x128_2_1_01_0_n_n 768 rfl rfl).symm]
  refine Finset.sum_congr rfl fun f _ => ?_
  have cf := contrEquiv1_symm_val dot_S32x128x768_S128x768_S32x128x128_2_1_01_0_n_n 768 rfl rfl f
  have l : dot_S32x128x768_S128x768_S32x128x128_2_1_01_0_n_n.lhsIdx (ix3 b n o)
      ((contrEquiv1 _ 768 rfl rfl).symm f) = ix3 b n f := by
    funext ax; apply Fin.ext
    match ax with
    | ⟨0, _⟩ => simp [DotDims.lhsIdx, dot_S32x128x768_S128x768_S32x128x128_2_1_01_0_n_n]; rfl
    | ⟨1, _⟩ => simp [DotDims.lhsIdx, dot_S32x128x768_S128x768_S32x128x128_2_1_01_0_n_n]; rfl
    | ⟨2, _⟩ => simp [DotDims.lhsIdx, dot_S32x128x768_S128x768_S32x128x128_2_1_01_0_n_n]; exact cf
  have r : dot_S32x128x768_S128x768_S32x128x128_2_1_01_0_n_n.rhsIdx (ix3 b n o)
      ((contrEquiv1 _ 768 rfl rfl).symm f) = ix2 o f := by
    funext ax; apply Fin.ext
    match ax with
    | ⟨0, _⟩ => simp [DotDims.rhsIdx, dot_S32x128x768_S128x768_S32x128x128_2_1_01_0_n_n]; rfl
    | ⟨1, _⟩ => simp [DotDims.rhsIdx, dot_S32x128x768_S128x768_S32x128x128_2_1_01_0_n_n]; exact cf
  rw [l, r]

/-- THE REFERENCE'S TERM of the arguments is the head of the arguments. -/
theorem headTerm_eq_head (h : FVec Ideal S32x128x768 .f32) (wemb : FVec Ideal S128x768 .f32) (wfc : FVec Ideal S2x128 .f32)
    (bfc : FVec Ideal S2 .f32) : headTerm (F := Ideal) h wemb wfc bfc = head h wemb wfc bfc := by
  funext i
  obtain ⟨b, j, rfl⟩ : ∃ (b : Fin 32) (j : Fin 2), i = ix2 b j := ⟨i 0, i 1, eq_ix2 i⟩
  rw [head_apply]
  unfold headTerm headOver
  rw [addf_apply]
  refine congrArg₂ (· + ·) ?_ ?_
  · refine (dotGeneral_plain_apply (m := 32) (n := 2) (k := 128) none _ _ b j).trans ?_
    refine Finset.sum_congr rfl fun o _ => congrArg₂ (· * ·) ?_ ?_
    · refine (shapeCast_apply _ _ (ix2 b o) (ix3 b (0 : Fin 1) o) ?_).trans ?_
      · rw [Shape.rowMajor_val_three, Shape.rowMajor_val_two]
        show (b.val * 1 + 0) * 128 + o.val = b.val * 128 + o.val
        omega
      · refine (extractStridedSlice_apply _ _ _ (ix3 b (0 : Fin 1) o) (ix3 b (0 : Fin 128) o) fun a => ?_).trans
          (embed_apply h wemb b 0 o)
        match a with
        | ⟨0, _⟩ => show b.val = 0 + b.val; omega
        | ⟨1, _⟩ => rfl
        | ⟨2, _⟩ => show o.val = 0 + o.val; omega
    · exact transpose_ix2_apply wfc _ o j
  · refine (broadcastInDim_apply _ _ _ (ix2 b j) (ix2 (0 : Fin 1) j) fun a => ?_).trans
      (broadcastInDim_apply _ _ bfc (ix2 (0 : Fin 1) j) (ix1 j) fun a => ?_)
    · match a with
      | ⟨0, _⟩ => rfl
      | ⟨1, _⟩ => rfl
    · match a with
      | ⟨0, _⟩ => rfl

end Cert.ReferenceIdeal.Algebra

end
-- ==== Proof.lean ====
/-
  The kernel and its reference compute one function on the extended reals: the classifier head read off the embedding
  of node 0,   y[b, j] = Σ_o ( Σ_f h[b, 0, f] · W_emb[o, f] ) · W_fc[j, o] + b_fc[j].

  The reference embeds every node, then sweeps the nodes with a gated recurrent update in a loop of 128 trips whose
  results it never reads, and takes the head from row 0 of the embeddings as first computed; the loop only has to be
  shown to end and to leave those embeddings and the arguments alone. The kernel slices node 0 out of the features on
  the host and does the two products in one call over a grid of one point; its rounding of the first product's operands
  to a shorter float format is the identity on the extended reals. Both sides are the same sums over the same index
  sets, so no law beyond reading each operation at an index is needed, and the inputs' finiteness is not used.

  The frames: the two kernel programs' are the generated frame runs; the reference's is its run with the result dropped.
  The idealization rewrote nothing, so there is nothing to preserve.
-/
import proofs.«415053_j84911503442503_3_alg».proof.Defs
import proofs.«415053_j84911503442503_3_alg».proof.Proof.Gen.Kernel
import proofs.«415053_j84911503442503_3_alg».proof.Proof.Gen.Kernel.Skeleton
import proofs.«415053_j84911503442503_3_alg».proof.Proof.Gen.Kernel.Launch
import proofs.«415053_j84911503442503_3_alg».proof.Proof.Gen.Kernel.Points
import proofs.«415053_j84911503442503_3_alg».proof.Proof.Gen.Kernel.Frame
import proofs.«415053_j84911503442503_3_alg».proof.Proof.Gen.KernelIdeal
import proofs.«415053_j84911503442503_3_alg».proof.Proof.Gen.KernelIdeal.Skeleton
import proofs.«415053_j84911503442503_3_alg».proof.Proof.Gen.KernelIdeal.Launch
import proofs.«415053_j84911503442503_3_alg».proof.Proof.Gen.KernelIdeal.Points
import proofs.«415053_j84911503442503_3_alg».proof.Proof.Gen.KernelIdeal.Frame
import proofs.«415053_j84911503442503_3_alg».proof.Proof.Gen.ReferenceIdeal
import proofs.«415053_j84911503442503_3_alg».proof.Proof.Gen.Pre_finite_inputs
import proofs.«415053_j84911503442503_3_alg».proof.Proof.Gen.KernelIdeal.Value
import proofs.«415053_j84911503442503_3_alg».proof.Proof.Gen.ReferenceIdeal.Run
import proofs.«415053_j84911503442503_3_alg».proof.Proof.KernelHead
import proofs.«415053_j84911503442503_3_alg».proof.Proof.KernelAlgebra
import proofs.«415053_j84911503442503_3_alg».proof.Proof.RefHead
import proofs.«415053_j84911503442503_3_alg».proof.Proof.RefAlgebra
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs to its end, the loop included, and leaves its arguments as launched. -/
theorem frame_referenceIdeal : Cert.frame_ReferenceIdeal := fun m ρ _ =>
  (θ_run Cert.ReferenceIdeal.defs _ _).mono (fun _ h c => (h c).2) (Cert.ReferenceIdeal.Head.run (F := Ideal) m ρ)

/-- Both programs end with the head of the arguments in their result arrays: the kernel's payload of the operands its
    host prepares is the head, and so is the reference's term; the arguments agree. -/
theorem algebraic : Cert.algebraic_KernelIdeal_ReferenceIdeal := by
  intro m ρ m' ρ' _ hagree
  refine ⟨fun c => Cert.HeadSpec.head
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun _ h c => ⟨(h c).1.trans ?_, (h c).2⟩)
      (Cert.KernelIdeal.Head.run (F := Ideal) m ρ)
    exact Cert.KernelIdeal.Algebra.pay_eq_head _ _ _ _
  · refine (θ_run Cert.ReferenceIdeal.defs _ _).mono (fun _ h c => ⟨(h c).1.trans ?_, (h c).2⟩)
      (Cert.ReferenceIdeal.Head.run (F := Ideal) m' ρ')
    obtain ⟨e0, -, e2, -, -, -, -, -, -, -, -, e11, e12⟩ := hagree c
    rw [e0, e2, e11, e12]
    exact Cert.ReferenceIdeal.Algebra.headTerm_eq_head _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
